-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v9) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x4096x64 : Shape := ⟨3, ![16, 4096, 64]⟩
abbrev S16x4096x32 : Shape := ⟨3, ![16, 4096, 32]⟩
abbrev S_ : Shape := ⟨0, ![]⟩

class Facts : Prop where
  bcast_S_S16x4096x64 : S_.BroadcastsInDim S16x4096x64 (![] : Fin 0 → Fin S16x4096x64.rank)
  reducesTo_S16x4096x64_S_d0_1_2 : S16x4096x64.ReducesTo [0, 1, 2] S_
  h_S_ : 0 < S_.numel
  bcast_S_S16x4096x32 : S_.BroadcastsInDim S16x4096x32 (![] : Fin 0 → Fin S16x4096x32.rank)
  reducesTo_S16x4096x32_S_d0_1_2 : S16x4096x32.ReducesTo [0, 1, 2] S_

variable [Facts]

def fn {F : FTy → Type} [FloatOps F] (main_arg0 : FVec F S16x4096x64 .f32) (main_arg1 : IVec S16x4096x32 32) : IVec S_ 1 :=
  let main_v0 : FVec F S16x4096x64 .f32 := Host.absf main_arg0
  let main_cst : FVec F S_ .f32 := constant S_ .f32 0x7F800000#32
  let main_v1 : FVec F S16x4096x64 .f32 := broadcastInDim S16x4096x64 ![] bcast_S_S16x4096x64 main_cst
  let main_v2 : IVec S16x4096x64 1 := cmpf .olt main_v0 main_v1
  let main_c : IVec S_ 1 := constantI S_ 1 1#1
  let main_v3 : IVec S_ 1 := (fun x v => Host.reduce IntOp.andi x v reducesTo_S16x4096x64_S_d0_1_2 h_S_) main_v2 main_c
  let main_c_0 : IVec S_ 32 := constantI S_ 32 0#32
  let main_v4 : IVec S16x4096x32 32 := broadcastInDim S16x4096x32 ![] bcast_S_S16x4096x32 main_c_0
  let main_v5 : IVec S16x4096x32 1 := cmpi .sge main_arg1 main_v4
  let main_c_1 : IVec S_ 1 := constantI S_ 1 1#1
  let main_v6 : IVec S_ 1 := (fun x v => Host.reduce IntOp.andi x v reducesTo_S16x4096x32_S_d0_1_2 h_S_) main_v5 main_c_1
  let main_v7 : IVec S_ 1 := andi main_v3 main_v6
  let main_c_2 : IVec S_ 32 := constantI S_ 32 4096#32
  let main_v8 : IVec S16x4096x32 32 := broadcastInDim S16x4096x32 ![] bcast_S_S16x4096x32 main_c_2
  let main_v9 : IVec S16x4096x32 1 := cmpi .slt main_arg1 main_v8
  let main_c_3 : IVec S_ 1 := constantI S_ 1 1#1
  let main_v10 : IVec S_ 1 := (fun x v => Host.reduce IntOp.andi x v reducesTo_S16x4096x32_S_d0_1_2 h_S_) main_v9 main_c_3
  let main_v11 : IVec S_ 1 := andi main_v7 main_v10
  main_v11
-- ==== Kernel.lean ====
abbrev S16x4096x64 : Shape := ⟨3, ![16, 4096, 64]⟩
abbrev S16x4096x32 : Shape := ⟨3, ![16, 4096, 32]⟩
abbrev S1x4096x64 : Shape := ⟨3, ![1, 4096, 64]⟩
abbrev S1x256x32 : Shape := ⟨3, ![1, 256, 32]⟩
abbrev S1x256x64 : Shape := ⟨3, ![1, 256, 64]⟩
abbrev S256x32 : Shape := ⟨2, ![256, 32]⟩
abbrev S256x4096 : Shape := ⟨2, ![256, 4096]⟩
abbrev S256x1 : Shape := ⟨2, ![256, 1]⟩
abbrev S4096x64 : Shape := ⟨2, ![4096, 64]⟩
abbrev S256x64 : Shape := ⟨2, ![256, 64]⟩

abbrev nBuf : Space → Nat
  | .hbm => 3
  | .vmem => 6
  | .smem => 0
  | _ => 0

abbrev bufTy : (tb : Table) → Fin (tcTables nBuf tb) → BufTy
  | .hbm, ⟨0, _⟩ => ⟨S16x4096x64, .f32⟩
  | .hbm, ⟨1, _⟩ => ⟨S16x4096x32, .i32⟩
  | .hbm, ⟨2, _⟩ => ⟨S16x4096x64, .f32⟩
  | .local _ .vmem, ⟨0, _⟩ => ⟨S1x4096x64, .f32⟩
  | .local _ .vmem, ⟨1, _⟩ => ⟨S1x4096x64, .f32⟩
  | .local _ .vmem, ⟨2, _⟩ => ⟨S1x256x32, .i32⟩
  | .local _ .vmem, ⟨3, _⟩ => ⟨S1x256x32, .i32⟩
  | .local _ .vmem, ⟨4, _⟩ => ⟨S1x256x64, .f32⟩
  | .local _ .vmem, ⟨5, _⟩ => ⟨S1x256x64, .f32⟩
  | _, _ => ⟨S16x4096x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![16, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x4096x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x256x32 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

class Facts₀ : Prop where
  inb_S1x256x32_S1x256x32_0_0_0 : ∀ a, (![0, 0, 0] : Fin 3 → Nat) a + S1x256x32.size a ≤ S1x256x32.size a
  h_S1x256x32 : 0 < S1x256x32.numel
  shapeCasts_S1x256x32_S256x32 : S1x256x32.ShapeCasts S256x32
  iota_S256x4096_d1_w32 : S256x4096.Iotas .tc 32 [1]
  slices_S256x32_o0_0_S256x1 : S256x32.Slices ![0, 0] S256x1
  broadcasts_S256x1_S256x4096 : S256x1.Broadcasts S256x4096
  natLt_1_32 : 1 < 32
  bitsLt_bf16_f32 : FTy.bits .bf16 < FTy.bits .f32
  slices_S256x32_o0_1_S256x1 : S256x32.Slices ![0, 1] S256x1
  slices_S256x32_o0_2_S256x1 : S256x32.Slices ![0, 2] S256x1
  slices_S256x32_o0_3_S256x1 : S256x32.Slices ![0, 3] S256x1
  slices_S256x32_o0_4_S256x1 : S256x32.Slices ![0, 4] S256x1
  slices_S256x32_o0_5_S256x1 : S256x32.Slices ![0, 5] S256x1
  slices_S256x32_o0_6_S256x1 : S256x32.Slices ![0, 6] S256x1
  slices_S256x32_o0_7_S256x1 : S256x32.Slices ![0, 7] S256x1
  slices_S256x32_o0_8_S256x1 : S256x32.Slices ![0, 8] S256x1
  slices_S256x32_o0_9_S256x1 : S256x32.Slices ![0, 9] S256x1
  slices_S256x32_o0_10_S256x1 : S256x32.Slices ![0, 10] S256x1
  slices_S256x32_o0_11_S256x1 : S256x32.Slices ![0, 11] S256x1
  slices_S256x32_o0_12_S256x1 : S256x32.Slices ![0, 12] S256x1
  slices_S256x32_o0_13_S256x1 : S256x32.Slices ![0, 13] S256x1
  slices_S256x32_o0_14_S256x1 : S256x32.Slices ![0, 14] S256x1
  slices_S256x32_o0_15_S256x1 : S256x32.Slices ![0, 15] S256x1
  slices_S256x32_o0_16_S256x1 : S256x32.Slices ![0, 16] S256x1
  slices_S256x32_o0_17_S256x1 : S256x32.Slices ![0, 17] S256x1
  slices_S256x32_o0_18_S256x1 : S256x32.Slices ![0, 18] S256x1
  slices_S256x32_o0_19_S256x1 : S256x32.Slices ![0, 19] S256x1
  slices_S256x32_o0_20_S256x1 : S256x32.Slices ![0, 20] S256x1
  slices_S256x32_o0_21_S256x1 : S256x32.Slices ![0, 21] S256x1
  slices_S256x32_o0_22_S256x1 : S256x32.Slices ![0, 22] S256x1
  slices_S256x32_o0_23_S256x1 : S256x32.Slices ![0, 23] S256x1
  slices_S256x32_o0_24_S256x1 : S256x32.Slices ![0, 24] S256x1
  slices_S256x32_o0_25_S256x1 : S256x32.Slices ![0, 25] S256x1
  slices_S256x32_o0_26_S256x1 : S256x32.Slices ![0, 26] S256x1
  slices_S256x32_o0_27_S256x1 : S256x32.Slices ![0, 27] S256x1
  slices_S256x32_o0_28_S256x1 : S256x32.Slices ![0, 28] S256x1
  slices_S256x32_o0_29_S256x1 : S256x32.Slices ![0, 29] S256x1
  slices_S256x32_o0_30_S256x1 : S256x32.Slices ![0, 30] S256x1
  slices_S256x32_o0_31_S256x1 : S256x32.Slices ![0, 31] S256x1
  inb_S1x4096x64_S1x4096x64_0_0_0 : ∀ a, (![0, 0, 0] : Fin 3 → Nat) a + S1x4096x64.size a ≤ S1x4096x64.size a
  h_S1x4096x64 : 0 < S1x4096x64.numel
  shapeCasts_S1x4096x64_S4096x64 : S1x4096x64.ShapeCasts S4096x64
  inb_S1x256x64_S1x256x64_0_0_0 : ∀ a, (![0, 0, 0] : Fin 3 → Nat) a + S1x256x64.size a ≤ S1x256x64.size a
  h_S1x256x64 : 0 < S1x256x64.numel
  shapeCasts_S1x256x64_S256x64 : S1x256x64.ShapeCasts S256x64
  shapeCasts_S256x64_S1x256x64 : S256x64.ShapeCasts S1x256x64
  dot_S256x4096_S4096x64_S256x64_1_0_0_1_n_n_wf : DotDims.WF S256x4096 S4096x64 S256x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x4096x64.size a ≤ S16x4096x64.size a
  hwx0_0 : ∀ i : grid0.Coords, EltTy.bits .f32 = 32 ∨ (Rect.block (s := S16x4096x64) S1x4096x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x256x32.size a ≤ S16x4096x32.size a
  hwx0_1 : ∀ i : grid0.Coords, EltTy.bits .i32 = 32 ∨ (Rect.block (s := S16x4096x32) S1x256x32.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x256x64.size a ≤ S16x4096x64.size a
  hwx0_2 : ∀ i : grid0.Coords, EltTy.bits .f32 = 32 ∨ (Rect.block (s := S16x4096x64) S1x256x64.size (cc0_transform_2 i) (hinb0_2 i)).WholeWords (EltTy.packing .f32)

variable [Facts₀]

def dot_S256x4096_S4096x64_S256x64_1_0_0_1_n_n : DotDims S256x4096 S4096x64 S256x64 where
  lhsContracting := [1]
  rhsContracting := [0]
  lhsNonContracting := [0]
  rhsNonContracting := [1]
  lhsBatch := []
  rhsBatch := []
  wf := dot_S256x4096_S4096x64_S256x64_1_0_0_1_n_n_wf

abbrev win0_0 : Pipeline.Window sig grid0 :=
  Pipeline.Window.ofSpec (Memref.whole main_arg0) S1x4096x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x256x32.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x256x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S16x4096x64 : Shape := ⟨3, ![16, 4096, 64]⟩
abbrev S16x4096x32 : Shape := ⟨3, ![16, 4096, 32]⟩
abbrev S_ : Shape := ⟨0, ![]⟩
abbrev S16x4096x32x1 : Shape := ⟨4, ![16, 4096, 32, 1]⟩
abbrev S16x4096x32x64 : Shape := ⟨4, ![16, 4096, 32, 64]⟩

abbrev nBuf : Space → Nat
  | .hbm => 16
  | .vmem => 0
  | .smem => 0
  | _ => 0

abbrev bufTy : (tb : Table) → Fin (tcTables nBuf tb) → BufTy
  | .hbm, ⟨0, _⟩ => ⟨S16x4096x64, .f32⟩
  | .hbm, ⟨1, _⟩ => ⟨S16x4096x32, .i32⟩
  | .hbm, ⟨2, _⟩ => ⟨S_, .i32⟩
  | .hbm, ⟨3, _⟩ => ⟨S16x4096x32, .i32⟩
  | .hbm, ⟨4, _⟩ => ⟨S16x4096x32, .i1⟩
  | .hbm, ⟨5, _⟩ => ⟨S_, .i32⟩
  | .hbm, ⟨6, _⟩ => ⟨S16x4096x32, .i32⟩
  | .hbm, ⟨7, _⟩ => ⟨S16x4096x32, .i32⟩
  | .hbm, ⟨8, _⟩ => ⟨S16x4096x32, .i32⟩
  | .hbm, ⟨9, _⟩ => ⟨S16x4096x32x1, .i32⟩
  | .hbm, ⟨10, _⟩ => ⟨S16x4096x32x64, .f32⟩
  | .hbm, ⟨11, _⟩ => ⟨S_, .f32⟩
  | .hbm, ⟨12, _⟩ => ⟨S16x4096x64, .f32⟩
  | .hbm, ⟨13, _⟩ => ⟨S_, .f32⟩
  | .hbm, ⟨14, _⟩ => ⟨S16x4096x64, .f32⟩
  | .hbm, ⟨15, _⟩ => ⟨S16x4096x64, .f32⟩
  | _, _ => ⟨S16x4096x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_v0 : Ref sig .tc := ⟨.hbm, 3, rfl⟩
abbrev main_v1 : Ref sig .tc := ⟨.hbm, 4, rfl⟩
abbrev main_c_0 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_v7 : Ref sig .tc := ⟨.hbm, 12, rfl⟩
abbrev main_cst_1 : Ref sig .tc := ⟨.hbm, 13, rfl⟩
abbrev main_v8 : Ref sig .tc := ⟨.hbm, 14, rfl⟩
abbrev main_v9 : Ref sig .tc := ⟨.hbm, 15, rfl⟩

abbrev nD : Nat := 1
abbrev τ : Topo := Topo.v7x

variable {F : FTy → Type} [FloatOps F]

class Facts₀ : Prop where
  bcast_S_S16x4096x32 : S_.BroadcastsInDim S16x4096x32 (![] : Fin 0 → Fin S16x4096x32.rank)
  bcast_S16x4096x32_S16x4096x32x1_0_1_2 : S16x4096x32.BroadcastsInDim S16x4096x32x1 (![0, 1, 2] : Fin 3 → Fin S16x4096x32x1.rank)
  reducesTo_S16x4096x32x64_S16x4096x64_d2 : S16x4096x32x64.ReducesTo [2] S16x4096x64
  h_S_ : 0 < S_.numel
  bcast_S_S16x4096x64 : S_.BroadcastsInDim S16x4096x64 (![] : Fin 0 → Fin S16x4096x64.rank)
  gather_S16x4096x64_S16x4096x32x1_S16x4096x32x64_3_1_0_0_1_3_1164_wf : GatherDims.WF S16x4096x64 S16x4096x32x1 S16x4096x32x64 [3] [1] [0] [1] [0] 3 ![1, 1, 64]

variable [Facts₀]

def gather_S16x4096x64_S16x4096x32x1_S16x4096x32x64_3_1_0_0_1_3_1164 : GatherDims S16x4096x64 S16x4096x32x1 S16x4096x32x64 where
  offsetDims := [3]
  collapsedSliceDims := [1]
  operandBatchingDims := [0]
  startIndicesBatchingDims := [0]
  startIndexMap := [1]
  indexVectorDim := 3
  sliceSizes := ![1, 1, 64]
  wf := gather_S16x4096x64_S16x4096x32x1_S16x4096x32x64_3_1_0_0_1_3_1164_wf

class Facts : Prop extends Facts₀ where

variable [Facts]
-- ==== Proof.LibKeepdims.lean ====
/-
  General lemmas for a row reduction kept as a column (`jnp.sum(axis=1, keepdims=True)`): the cast of a
  length-`a` vector to an `[a, 1]` column read at an index, such a column broadcast across `b` lanes read at
  an index, and, at the ideal values, a float sum over axis 1 of an `[a, b]` array read at a row as the sum
  over the row's entries.  Stated over literal coordinates built by `ix1` / `ix2`.
-/
import Idealize.ShloMosaic.Lib.ValueIdx
import Idealize.ShloMosaic.Lib.Pipeline.Value
import Idealize.ShloMosaic.PureOps.Ideal.Laws

noncomputable section

namespace Idealize.ShloMosaic.ValueIdx

open Idealize.ShloMosaic

variable {α : Type}

/-- A length-`a` vector cast to an `[a, 1]` column reads, at `(i, u)`, the vector at `i`, whatever the unit
    coordinate `u`: both indices have row-major position `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(i, j)`, the column's entry in row `i`. -/
theorem broadcastTo_a1_ab_apply {a b : ℕ} (v : (⟨2, ![a, 1]⟩ : Shape).Idx → α) (h : (⟨2, ![a, 1]⟩ : Shape).Broadcasts ⟨2, ![a, b]⟩)
    (i : Fin a) (j : Fin b) : broadcastTo ⟨2, ![a, b]⟩ v h (ix2 i j) = v (ix2 i (0 : Fin 1)) := by
  refine broadcastTo_apply v h (ix2 i j) (ix2 i (0 : Fin 1)) fun ax => ?_
  match ax with
  | ⟨0, _⟩ =>
    show i.val = if a = 1 then 0 else i.val
    split
    · have := i.isLt; omega
    · rfl
  | ⟨1, _⟩ =>
    show (0 : ℕ) = if (1 : ℕ) = 1 then 0 else j.val
    rw [if_pos rfl]

/-- At the ideal values a float sum over axis 1 of an `[a, b]` array, read at row `i`, is the sum over `d` of the
    entries `(i, d)`. The accumulator's evidence is taken as the equation of words a printed body carries. -/
theorem rowSum_apply {a b : ℕ} (y : FVec Ideal ⟨2, ![a, b]⟩ .f32) (h : Shape.Reduces ⟨2, ![a, b]⟩ [1] ⟨1, ![a]⟩)
    (hφ : FKind.Formats .f32) (hacc : (0x00000000#32 : BitVec 32) = 0x00000000#32) (i : Fin a) :
    multiReduction .add [1] ⟨1, ![a]⟩ y 0x00000000#32 h hφ hacc (ix1 i) = ∑ d : Fin b, y (ix2 i d) := by
  refine (Ideal.multiReduction_add_single y 0x00000000#32 h hφ hacc (ix1 i)).trans ?_
  refine Finset.sum_congr rfl fun d _ => congrArg y ?_
  funext c
  apply Fin.ext
  match c with
  | ⟨0, _⟩ => rfl
  | ⟨1, _⟩ => rfl

end Idealize.ShloMosaic.ValueIdx

end
-- ==== Proof.Pooling.lean ====
/-
  The arithmetic of pooling by counting.  A row of `K = 32` neighbour indices into a table of `N = 4096`
  rows can be averaged in two ways: gather the 32 named rows and add them, or count, for every table row
  `q`, how many of the 32 indices name it, and add `count q · row q` over all 4096 rows.  Over the reals
  the two sums are equal (exchange the order of summation; a sum of an indicator picks one term).  This
  module states that law, first over the reals and then over extended reals that are known to be real,
  for indices given as 32-bit words that encode numbers below 4096; it also reads the three float
  constants the two programs spell, and the law that multiplying by 1/32 is dividing by 32 on every
  extended real.
-/
import Idealize.ShloMosaic.Lib.ValueIdx
import Idealize.ShloMosaic.Lib.StableHlo.Predicate
import Idealize.ShloMosaic.PureOps.Ideal.Laws

noncomputable section

open scoped BigOperators

namespace Cert.Pooling

open Idealize.ShloMosaic

/-- What one compare of a neighbour index `w` with a lane number `j` adds to the lane's count at the ideal
    values: the compare's bit, widened to a word and read as a signed integer, as an extended real. -/
def hit (w j : BitVec 32) : EReal := ((((IntOp.cmpi .eq w j).setWidth 32).toInt : ℝ) : EReal)

/-- It is the indicator of `w = j`. -/
theorem hit_eq (w j : BitVec 32) : hit w j = (((if w = j then 1 else 0 : ℝ)) : EReal) := by
  unfold hit
  by_cases h : w = j
  · rw [if_pos h, StableHlo.Predicate.cmpi_eq_iff.mpr h]
    have e : ((1#1 : BitVec 1).setWidth 32).toInt = 1 := by decide
    rw [e, Int.cast_one]
  · rw [if_neg h, ValueIdx.eq_zero_of_ne_one (fun h1 => h (StableHlo.Predicate.cmpi_eq_iff.mp h1))]
    have e : ((0#1 : BitVec 1).setWidth 32).toInt = 0 := by decide
    rw [e, Int.cast_zero]

/-- Two numbers below 4096 are equal when their 32-bit words are. -/
theorem ofNat_inj_small {a q : ℕ} (ha : a < 4096) (hq : q < 4096) :
    BitVec.ofNat 32 a = BitVec.ofNat 32 q ↔ a = q := by
  constructor
  · intro h
    have e := congrArg BitVec.toNat h
    simp only [BitVec.toNat_ofNat] at e
    have hb : (4096 : ℕ) ≤ 2 ^ 32 := by norm_num
    rw [Nat.mod_eq_of_lt (lt_of_lt_of_le ha hb), Nat.mod_eq_of_lt (lt_of_lt_of_le hq hb)] at e
    exact e
  · rintro rfl; rfl

/-- The coercion of the reals into the extended reals commutes with finite sums. -/
theorem coe_sum {ι : Type} (s : Finset ι) (f : ι → ℝ) :
    ((∑ i ∈ s, f i : ℝ) : EReal) = ∑ i ∈ s, (f i : EReal) := by
  classical
  refine Finset.induction_on s ?_ ?_
  · simp
  · intro a s ha ih
    rw [Finset.sum_insert ha, Finset.sum_insert ha, EReal.coe_add, ih]

/-- COUNTING IS GATHERING, over the reals: weighting table row `j` by the number of indices that name it and
    adding over the table is adding the named rows. -/
theorem sum_count_mul {K N : ℕ} (a : Fin K → Fin N) (r : Fin N → ℝ) :
    ∑ j : Fin N, (∑ k : Fin K, if a k = j then (1 : ℝ) else 0) * r j = ∑ k : Fin K, r (a k) := by
  simp_rw [Finset.sum_mul]
  rw [Finset.sum_comm]
  refine Finset.sum_congr rfl fun k _ => ?_
  simp [ite_mul]

/-- The same over extended reals that are real, with the indices given as words below 4096 and the lane
    numbers as the words of `0 … 4095`: the one-hot counts times the table, added over the table, is the sum of
    the gathered entries. -/
theorem count_eq_gather (w : Fin 32 → BitVec 32) (a : Fin 32 → Fin 4096)
    (hw : ∀ k, w k = BitVec.ofNat 32 (a k).val) (x : Fin 4096 → EReal) (r : Fin 4096 → ℝ)
    (hx : ∀ q, x q = (r q : EReal)) :
    ∑ q : Fin 4096, (∑ k : Fin 32, hit (w k) (BitVec.ofNat 32 q.val)) * x q = ∑ k : Fin 32, x (a k) := by
  have hh : ∀ k q, hit (w k) (BitVec.ofNat 32 q.val) = (((if a k = q then 1 else 0 : ℝ)) : EReal) := by
    intro k q
    rw [hit_eq, hw k]
    refine congrArg _ (if_congr ?_ rfl rfl)
    rw [ofNat_inj_small (a k).isLt q.isLt]
    exact ⟨fun h => Fin.ext h, fun h => congrArg _ h⟩
  calc ∑ q : Fin 4096, (∑ k : Fin 32, hit (w k) (BitVec.ofNat 32 q.val)) * x q
      = ∑ q : Fin 4096, (((∑ k : Fin 32, (if a k = q then 1 else 0 : ℝ)) * r q : ℝ) : EReal) := by
        refine Finset.sum_congr rfl fun q _ => ?_
        rw [hx q, EReal.coe_mul, coe_sum]
        exact congrArg (· * _) (Finset.sum_congr rfl fun k _ => hh k q)
    _ = ((∑ q : Fin 4096, (∑ k : Fin 32, (if a k = q then 1 else 0 : ℝ)) * r q : ℝ) : EReal) :=
        (coe_sum _ _).symm
    _ = ((∑ k : Fin 32, r (a k) : ℝ) : EReal) := by rw [sum_count_mul]
    _ = ∑ k : Fin 32, x (a k) := by
        rw [coe_sum]
        exact Finset.sum_congr rfl fun k _ => (hx _).symm

/-! ## The constants -/

/-- The kernel's scale `0.03125` denotes the real `1/32`. -/
theorem ofBits_inv32 : Ideal.ofBits .f32 0x3D000000#32 = ((1 / 32 : ℝ) : EReal) := by
  simp [Ideal.ofBits, Ideal.ieee, -EReal.coe_mul]; norm_num

/-- The reference's divisor `32.0` denotes the real `32`. -/
theorem ofBits_32 : Ideal.ofBits .f32 0x42000000#32 = ((32 : ℝ) : EReal) := by
  simp [Ideal.ofBits, Ideal.ieee, -EReal.coe_mul]; norm_num

/-- The bf16 zero the one-hot counts start from denotes `0`. -/
theorem ofBits_zero_bf16 : Ideal.ofBits .bf16 0x0000#16 = 0 := by
  simp [Ideal.ofBits, Ideal.ieee]

/-- THE MEAN: a sum scaled by the kernel's `1/32` is the reference's zero-initialised sum divided by `32`, for
    every extended real (no finiteness: division by a nonzero real IS multiplication by its inverse). -/
theorem scale_eq_div (S : EReal) :
    S * Ideal.ofBits .f32 0x3D000000#32 = Ideal.div (Ideal.ofBits .f32 0x00000000#32 + S) (Ideal.ofBits .f32 0x42000000#32) := by
  rw [ofBits_inv32, ofBits_32, Ideal.ofBits_zero_f32, zero_add, Ideal.div_coe (by norm_num : (32 : ℝ) ≠ 0)]

/-! ## Thirty-two terms added one after the other -/

/-- A sum over `0 … 31` is its terms added left to right from zero: the shape an unrolled accumulation has. -/
theorem sum_range32 (f : ℕ → EReal) :
    ∑ k ∈ Finset.range 32, f k = 0 + f 0 + f 1 + f 2 + f 3 + f 4 + f 5 + f 6 + f 7 + f 8 + f 9 + f 10 + f 11 + f 12 + f 13 + f 14 + f 15 + f 16 + f 17 + f 18 + f 19 + f 20 + f 21 + f 22 + f 23 + f 24 + f 25 + f 26 + f 27 + f 28 + f 29 + f 30 + f 31 := by
  simp only [Finset.sum_range_succ, Finset.sum_range_zero]

/-- The same for a family indexed by the thirty-two neighbour positions. -/
theorem sum_fin32 (g : Fin 32 → EReal) :
    ∑ k : Fin 32, g k = 0 + g ⟨0, by decide⟩ + g ⟨1, by decide⟩ + g ⟨2, by decide⟩ + g ⟨3, by decide⟩ + g ⟨4, by decide⟩ + g ⟨5, by decide⟩ + g ⟨6, by decide⟩ + g ⟨7, by decide⟩ + g ⟨8, by decide⟩ + g ⟨9, by decide⟩ + g ⟨10, by decide⟩ + g ⟨11, by decide⟩ + g ⟨12, by decide⟩ + g ⟨13, by decide⟩ + g ⟨14, by decide⟩ + g ⟨15, by decide⟩ + g ⟨16, by decide⟩ + g ⟨17, by decide⟩ + g ⟨18, by decide⟩ + g ⟨19, by decide⟩ + g ⟨20, by decide⟩ + g ⟨21, by decide⟩ + g ⟨22, by decide⟩ + g ⟨23, by decide⟩ + g ⟨24, by decide⟩ + g ⟨25, by decide⟩ + g ⟨26, by decide⟩ + g ⟨27, by decide⟩ + g ⟨28, by decide⟩ + g ⟨29, by decide⟩ + g ⟨30, by decide⟩ + g ⟨31, by decide⟩ := by
  have h : ∀ k : Fin 32, g k = (fun n : ℕ => if h : n < 32 then g ⟨n, h⟩ else 0) k.val := fun k => by
    show _ = dite _ _ _
    rw [dif_pos k.isLt]
  rw [Finset.sum_congr rfl fun k _ => h k,
    Fin.sum_univ_eq_sum_range (fun n : ℕ => if h : n < 32 then g ⟨n, h⟩ else 0) 32, sum_range32]
  rfl

end Cert.Pooling

end
-- ==== Proof.Counts.lean ====
/-
  The kernel body at an index.  For one grid point the body builds, lane by lane, a table of counts
  `cnt[p, q] = #{k < 32 : idx[p, k] = q}` — thirty-two compares of a column of the index block, broadcast
  across the 4096 lanes, with the lane numbers `0 … 4095`, each converted to a float `0` or `1` and added onto
  the running total from zero — then multiplies the counts into the per-batch table on the matrix unit and
  scales by `1/32`.  Read at the ideal values at row `p` and column `c` of the output block this is
  `(Σ_q cnt[p, q] · x[q, c]) · (1/32)`, which is what this module states, over the generated payload terms.
-/
import proofs.«431460_j53334903882144_1_alg».proof.Proof.Gen.KernelIdeal.Frame
import proofs.«431460_j53334903882144_1_alg».proof.Proof.LibKeepdims
import proofs.«431460_j53334903882144_1_alg».proof.Proof.Pooling
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

open scoped BigOperators

namespace Cert.KernelIdeal.Body

open Cert.KernelIdeal Cert.KernelIdeal.Gen Idealize.ShloMosaic Idealize.ShloMosaic.ValueIdx Cert.Pooling

/-! ## One neighbour's compare at a lane -/

/-- A one-column slice of the index block at column `k` exists only for `k < 32`. -/
theorem slice_lt {k : ℕ} (hs : S256x32.Slices ![0, k] S256x1) : k < 32 := by
  have h := hs.2 (1 : Fin S256x32.rank)
  change k + 1 ≤ 32 at h
  omega

/-- Column `k` of the index block, broadcast across the lanes, reads at lane `(p, q)` the index `(p, k)`. -/
theorem column_apply (v1 : IVec S256x32 32) (k : ℕ) (hs : S256x32.Slices ![0, k] S256x1)
    (hb : S256x1.Broadcasts S256x4096) (p : Fin 256) (q : Fin 4096) :
    broadcastTo S256x4096 (extractStridedSlice S256x1 ![0, k] v1 hs) hb (ix2 p q) = v1 (ix2 p ⟨k, slice_lt hs⟩) := by
  refine (broadcastTo_a1_ab_apply _ hb p q).trans ?_
  refine extractStridedSlice_apply _ v1 hs _ _ fun a => ?_
  match a with
  | ⟨0, _⟩ => exact (Nat.zero_add _).symm
  | ⟨1, _⟩ => rfl

/-- ONE STEP of the unrolled accumulation at the ideal values: the compare of column `k` with the lane numbers,
    widened, converted to a float and narrowed to bf16, is at lane `(p, q)` the indicator that index `(p, k)` is
    the word of `q`. -/
theorem step_apply (v1 : IVec S256x32 32) (k : ℕ) (hs : S256x32.Slices ![0, k] S256x1)
    (hb : S256x1.Broadcasts S256x4096) (hi : S256x4096.Iotas .tc 32 [1]) (h32 : 1 < 32)
    (hbf : FTy.bf16.bits < FTy.f32.bits) (p : Fin 256) (q : Fin 4096) :
    (truncf .bf16 (sitofp (F := Ideal) .f32 (extui 32 (cmpi .eq (broadcastTo S256x4096
      (extractStridedSlice S256x1 ![0, k] v1 hs) hb) (iota .tc S256x4096 32 [1] hi)) h32)) hbf) (ix2 p q)
      = hit (v1 (ix2 p ⟨k, slice_lt hs⟩)) (BitVec.ofNat 32 q.val) := by
  show ((((IntOp.cmpi .eq (broadcastTo S256x4096 (extractStridedSlice S256x1 ![0, k] v1 hs) hb (ix2 p q))
    (iota .tc S256x4096 32 [1] hi (ix2 p q))).setWidth 32).toInt : ℝ) : EReal) = _
  rw [column_apply, iota_single_apply]
  rfl

/-! ## The counts -/

/-- The index block with its leading unit axis dropped reads `(p, k)` at `(0, p, k)`. -/
theorem pay2_apply {F : FTy → Type} [FloatOps F] (x1 : Vec F S1x256x32 .i32) (p : Fin 256) (k : Fin 32) :
    k0_pay2 x1 (ix2 p k) = x1 (ix3 (0 : Fin 1) p k) := by
  unfold k0_pay2
  exact shapeCast_1ab_ab_apply _ _ p k

/-- One step, over the loaded index block: the indicator that index `(0, p, k)` of the block is the word of `q`. -/
theorem step_block (x1 : Vec Ideal S1x256x32 .i32) (k : ℕ) (hs : S256x32.Slices ![0, k] S256x1)
    (hb : S256x1.Broadcasts S256x4096) (hi : S256x4096.Iotas .tc 32 [1]) (h32 : 1 < 32)
    (hbf : FTy.bf16.bits < FTy.f32.bits) (p : Fin 256) (q : Fin 4096) :
    (truncf .bf16 (sitofp (F := Ideal) .f32 (extui 32 (cmpi .eq (broadcastTo S256x4096
      (extractStridedSlice S256x1 ![0, k] (k0_pay2 x1) hs) hb) (iota .tc S256x4096 32 [1] hi)) h32)) hbf) (ix2 p q)
      = hit (x1 (ix3 (0 : Fin 1) p ⟨k, slice_lt hs⟩)) (BitVec.ofNat 32 q.val) := by
  rw [step_apply, pay2_apply]

/-- The table of counts the body hands to the matrix unit, as the generated payload terms compose it from the
    loaded index block. -/
def counts {F : FTy → Type} [FloatOps F] (x1 : Vec F S1x256x32 .i32) : FVec F S256x4096 .bf16 :=
  k0_pay9 (k0_pay2 x1) (iota .tc S256x4096 32 [1] iota_S256x4096_d1_w32) (k0_pay7 (k0_pay2 x1) (iota .tc S256x4096 32 [1] iota_S256x4096_d1_w32) (k0_pay5 (k0_pay2 x1) (iota .tc S256x4096 32 [1] iota_S256x4096_d1_w32) (k0_pay3 x1) (k0_pay4 x1)) (k0_pay6 (F := F) (k0_pay2 x1) (iota .tc S256x4096 32 [1] iota_S256x4096_d1_w32))) (k0_pay8 (k0_pay2 x1))

/-- THE COUNTS AT A LANE, at the ideal values: the thirty-two indicators of row `p`'s indices against lane `q`,
    added. -/
theorem counts_apply (x1 : Vec Ideal S1x256x32 .i32) (p : Fin 256) (q : Fin 4096) :
    counts x1 (ix2 p q) = ∑ k : Fin 32, hit (x1 (ix3 (0 : Fin 1) p k)) (BitVec.ofNat 32 q.val) := by
  rw [sum_fin32]
  -- the left side: every payload opened, each of the thirty-two steps read at the lane
  unfold counts k0_pay9 k0_pay8 k0_pay7 k0_pay6 k0_pay5 k0_pay4 k0_pay3
  simp only [addf_apply, broadcast_apply]
  rw [step_block x1 0,
    step_block x1 1,
    step_block x1 2,
    step_block x1 3,
    step_block x1 4,
    step_block x1 5,
    step_block x1 6,
    step_block x1 7,
    step_block x1 8,
    step_block x1 9,
    step_block x1 10,
    step_block x1 11,
    step_block x1 12,
    step_block x1 13,
    step_block x1 14,
    step_block x1 15,
    step_block x1 16,
    step_block x1 17,
    step_block x1 18,
    step_block x1 19,
    step_block x1 20,
    step_block x1 21,
    step_block x1 22,
    step_block x1 23,
    step_block x1 24,
    step_block x1 25,
    step_block x1 26,
    step_block x1 27,
    step_block x1 28,
    step_block x1 29,
    step_block x1 30,
    step_block x1 31]
  show Ideal.ofBits .bf16 0x0000#16 + _ + _ + _ + _ + _ + _ + _ + _ + _ + _ + _ + _ + _ + _ + _ + _ + _ + _ + _ + _ + _ + _ + _ + _ + _ + _ + _ + _ + _ + _ + _ + _ = _
  rw [ofBits_zero_bf16]

end Cert.KernelIdeal.Body

end
-- ==== Proof.Body.lean ====
/-
  The kernel's output block at an index.  The body stores ONE piece, the whole `[1, 256, 64]` block:
  `(counts ⬝ table) · (1/32)`, the counts of the point's index block times the per-batch table (narrowed to
  bf16, which at the ideal values changes nothing) on the matrix unit into a zero accumulator.  At the ideal
  values the matrix product at `(p, c)` is the plain sum over the 4096 table rows `q` of `counts[p, q] · x[q, c]`
  (the contraction has one axis, re-indexed by its one coordinate).
-/
import proofs.«431460_j53334903882144_1_alg».proof.Proof.Counts

set_option maxRecDepth 16384

noncomputable section

open scoped BigOperators

namespace Cert.KernelIdeal.Body

open Cert.KernelIdeal Cert.KernelIdeal.Gen Idealize.ShloMosaic Idealize.ShloMosaic.ValueIdx Cert.Pooling

theorem hz3 : (![0, 0, 0] : Fin 3 → Nat) = fun _ => 0 := funext fun a => by fin_cases a <;> rfl

/-! ## The matrix product's operand indices, axis by axis -/

theorem lhs_0 (i : S256x64.Idx) (q : dot_S256x4096_S4096x64_S256x64_1_0_0_1_n_n.contr.Idx) :
    (dot_S256x4096_S4096x64_S256x64_1_0_0_1_n_n.lhsIdx i q 0).val = (i 0).val := by
  unfold DotDims.lhsIdx
  rw [dif_neg (show ¬(0 : Fin S256x4096.rank) ∈ dot_S256x4096_S4096x64_S256x64_1_0_0_1_n_n.lhsBatch by decide),
    dif_pos (show (0 : Fin S256x4096.rank) ∈ dot_S256x4096_S4096x64_S256x64_1_0_0_1_n_n.lhsNonContracting by decide)]
  rfl
theorem lhs_1 (i : S256x64.Idx) (q : dot_S256x4096_S4096x64_S256x64_1_0_0_1_n_n.contr.Idx) :
    (dot_S256x4096_S4096x64_S256x64_1_0_0_1_n_n.lhsIdx i q 1).val = (q ⟨0, by decide⟩).val :=
  dot_S256x4096_S4096x64_S256x64_1_0_0_1_n_n.lhsIdx_val_of_single rfl i q
theorem rhs_0 (i : S256x64.Idx) (q : dot_S256x4096_S4096x64_S256x64_1_0_0_1_n_n.contr.Idx) :
    (dot_S256x4096_S4096x64_S256x64_1_0_0_1_n_n.rhsIdx i q 0).val = (q ⟨0, by decide⟩).val :=
  dot_S256x4096_S4096x64_S256x64_1_0_0_1_n_n.rhsIdx_val_of_single rfl i q
theorem rhs_1 (i : S256x64.Idx) (q : dot_S256x4096_S4096x64_S256x64_1_0_0_1_n_n.contr.Idx) :
    (dot_S256x4096_S4096x64_S256x64_1_0_0_1_n_n.rhsIdx i q 1).val = (i 1).val := by
  unfold DotDims.rhsIdx
  rw [dif_neg (show ¬(1 : Fin S4096x64.rank) ∈ dot_S256x4096_S4096x64_S256x64_1_0_0_1_n_n.rhsBatch by decide),
    dif_pos (show (1 : Fin S4096x64.rank) ∈ dot_S256x4096_S4096x64_S256x64_1_0_0_1_n_n.rhsNonContracting by decide)]
  rfl

/-- The table block with its leading unit axis dropped and narrowed to bf16 reads `(q, c)` at `(0, q, c)`. -/
theorem table_apply (x0 : Vec Ideal S1x4096x64 .f32) (q : Fin 4096) (c : Fin 64) :
    k0_pay10 x0 (ix2 q c) = x0 (ix3 (0 : Fin 1) q c) := by
  unfold k0_pay10
  show shapeCast S4096x64 x0 shapeCasts_S1x4096x64_S4096x64 (ix2 q c) = _
  exact shapeCast_1ab_ab_apply _ _ q c

/-- THE BODY'S BLOCK AT `(u, p, c)`, at the ideal values: the counts of row `p` weighting column `c` of the table,
    added over the table's rows, times the kernel's `1/32`. -/
theorem out_apply (x0 : Vec Ideal S1x4096x64 .f32) (x1 : Vec Ideal S1x256x32 .i32) (u : Fin 1) (p : Fin 256)
    (c : Fin 64) :
    out0_2 x0 x1 (ix3 u p c)
      = (∑ q : Fin 4096, (∑ k : Fin 32, hit (x1 (ix3 (0 : Fin 1) p k)) (BitVec.ofNat 32 q.val)) * x0 (ix3 (0 : Fin 1) q c))
        * Ideal.ofBits .f32 0x3D000000#32 := by
  unfold out0_2
  rw [View.canon_unit_zero hz3]
  simp only [View.ld_unit_zero (S := S1x256x32) hz3, View.ld_unit_zero (S := S1x4096x64) hz3]
  show k0_pay1 (counts x1) (k0_pay10 x0) (ix3 u p c) = _
  unfold k0_pay1
  refine (shapeCast_ab_1ab_apply _ _ u p c).trans ?_
  show (matmul dot_S256x4096_S4096x64_S256x64_1_0_0_1_n_n none (counts x1) (k0_pay10 x0) (constant S256x64 .f32 0x00000000#32)) (ix2 p c)
    * Ideal.ofBits .f32 0x3D000000#32 = _
  refine congrArg (· * _) ?_
  simp only [matmul]
  rw [Ideal.matmul_constant_zero_apply, ← Equiv.sum_comp (contrEquiv1 dot_S256x4096_S4096x64_S256x64_1_0_0_1_n_n 4096 rfl rfl).symm]
  refine Finset.sum_congr rfl fun q _ => ?_
  have hk := contrEquiv1_symm_val dot_S256x4096_S4096x64_S256x64_1_0_0_1_n_n 4096 rfl rfl q
  have el : dot_S256x4096_S4096x64_S256x64_1_0_0_1_n_n.lhsIdx (ix2 p c) ((contrEquiv1 dot_S256x4096_S4096x64_S256x64_1_0_0_1_n_n 4096 rfl rfl).symm q) = ix2 p q :=
    funext fun a => Fin.ext (by
      match a with
      | ⟨0, _⟩ => exact lhs_0 _ _
      | ⟨1, _⟩ => exact (lhs_1 _ _).trans hk)
  have er : dot_S256x4096_S4096x64_S256x64_1_0_0_1_n_n.rhsIdx (ix2 p c) ((contrEquiv1 dot_S256x4096_S4096x64_S256x64_1_0_0_1_n_n 4096 rfl rfl).symm q) = ix2 q c :=
    funext fun a => Fin.ext (by
      match a with
      | ⟨0, _⟩ => exact (rhs_0 _ _).trans hk
      | ⟨1, _⟩ => exact rhs_1 _ _)
  rw [el, er, counts_apply, table_apply]

end Cert.KernelIdeal.Body

end
-- ==== Proof.Pooled.lean ====
/-
  The pooled array as ONE function of the table and the indices, in the kernel's arrangement — for each
  output entry `(b, n, c)` the counts of row `(b, n)`'s thirty-two indices weighting column `c` of batch `b`'s
  table, added over the 4096 table rows and scaled by `1/32` — and the law that joins it to the reference's
  arrangement: when the table is real and the indices are words of numbers below 4096 it is the zero-initialised
  sum of the thirty-two named table entries divided by `32`.
-/
import proofs.«431460_j53334903882144_1_alg».proof.Proof.Pooling

noncomputable section

open scoped BigOperators

namespace Cert.Pooling

open Idealize.ShloMosaic Idealize.ShloMosaic.ValueIdx

/-- The table's and the output's shape, and the indices'. -/
abbrev Sx : Shape := ⟨3, ![16, 4096, 64]⟩
abbrev Si : Shape := ⟨3, ![16, 4096, 32]⟩

/-- Output entry `(b, n, c)`, counted. -/
def pooledAt (X : Sx.Idx → EReal) (I : Si.Idx → BitVec 32) (b : Fin 16) (n : Fin 4096) (c : Fin 64) : EReal :=
  (∑ q : Fin 4096, (∑ k : Fin 32, hit (I (ix3 b n k)) (BitVec.ofNat 32 q.val)) * X (ix3 b q c))
    * Ideal.ofBits .f32 0x3D000000#32

/-- The whole pooled array. -/
def pooled (X : Sx.Idx → EReal) (I : Si.Idx → BitVec 32) : Sx.Idx → EReal :=
  fun i => pooledAt X I (i 0) (i 1) (i 2)

/-- COUNTED IS GATHERED: for a real table and in-range indices the counted entry is the mean of the named rows. -/
theorem pooledAt_eq_mean (X : Sx.Idx → EReal) (I : Si.Idx → BitVec 32) (a : Fin 16 → Fin 4096 → Fin 32 → Fin 4096)
    (ha : ∀ b n k, I (ix3 b n k) = BitVec.ofNat 32 (a b n k).val) (hX : ∀ i, ∃ r : ℝ, X i = (r : EReal))
    (b : Fin 16) (n : Fin 4096) (c : Fin 64) :
    pooledAt X I b n c
      = Ideal.div (Ideal.ofBits .f32 0x00000000#32 + ∑ k : Fin 32, X (ix3 b (a b n k) c)) (Ideal.ofBits .f32 0x42000000#32) := by
  unfold pooledAt
  rw [← scale_eq_div]
  refine congrArg (· * _) ?_
  choose r hr using hX
  exact count_eq_gather (fun k => I (ix3 b n k)) (a b n) (fun k => ha b n k) (fun q => X (ix3 b q c))
    (fun q => r (ix3 b q c)) (fun q => hr _)

end Cert.Pooling

end
-- ==== Proof.Blocks.lean ====
/-
  From the blocks to the array.  The grid has `16 × 16` points; point `t` is batch `t / 16`, query tile
  `t mod 16`.  Its table block is the whole of batch `t / 16`'s table, its index block and its output block are
  rows `256 · (t mod 16) … + 255` of that batch.  So what point `t` writes back is block `t` of ONE function of the
  two argument arrays, the pooled array; the 256 output blocks tile the output; hence the output array ends
  holding the pooled array of the arguments.
-/
import proofs.«431460_j53334903882144_1_alg».proof.Proof.Gen.KernelIdeal.Value
import proofs.«431460_j53334903882144_1_alg».proof.Proof.Body
import proofs.«431460_j53334903882144_1_alg».proof.Proof.Pooled

set_option maxRecDepth 16384

noncomputable section

open scoped BigOperators

namespace Cert.KernelIdeal.Hand

open Cert.KernelIdeal Cert.KernelIdeal.Gen Cert.KernelIdeal.Value Cert.KernelIdeal.Body Cert.Pooling
open Idealize.ShloMosaic Idealize.ShloMosaic.ValueIdx Idealize.ShloMosaic.TcCoe Idealize.SL.Sem
open Idealize.ShloMosaic.Pipeline (Dat)

variable (m : (ℓ : Loc nD τ sig) → Buf (Elt Ideal) ℓ) (ρ : Dev nD → PrngReg)

/-- The printed index maps over the grid: the table's block index is (batch, 0, 0), the indices' and the
    output's (batch, tile, 0). -/
theorem idx_facts : ∀ t : Fin cfg0.N,
    win0_0.index t (0 : Fin 3) = t.val / 16 ∧ win0_0.index t (1 : Fin 3) = 0 ∧ win0_0.index t (2 : Fin 3) = 0
    ∧ win0_1.index t (0 : Fin 3) = t.val / 16 ∧ win0_1.index t (1 : Fin 3) = t.val % 16 ∧ win0_1.index t (2 : Fin 3) = 0
    ∧ win0_2.index t (0 : Fin 3) = t.val / 16 ∧ win0_2.index t (1 : Fin 3) = t.val % 16 ∧ win0_2.index t (2 : Fin 3) = 0 :=
  (by decide +kernel : ∀ t : Fin grid0.N, _)

/-- The grid has 256 points. -/
theorem lt_N (t : Fin cfg0.N) : t.val < 256 := by
  have h : t.val < grid0.N := t.isLt
  rw [N_0] at h
  exact h

/-- An entry of the pooled array, by the values of its index's coordinates. -/
theorem pooled_apply (X : FVec Ideal S16x4096x64 .f32) (I : IVec S16x4096x32 32) (i : S16x4096x64.Idx) (b : Fin 16)
    (n : Fin 4096) (cc : Fin 64) (hb : b.val = (i 0).val) (hn : n.val = (i 1).val) (hc : cc.val = (i 2).val) :
    pooledAt X I b n cc = pooled X I i := by
  unfold pooled
  have e0 : b = i 0 := Fin.ext hb
  have e1 : n = i 1 := Fin.ext hn
  have e2 : cc = i 2 := Fin.ext hc
  rw [e0, e1, e2]

/-- ONE POINT over plain arrays: if the table block is batch `b` of a table `X` and the index block is rows
    `n0 … n0 + 255` of batch `b` of the indices `I`, the body's block at `(u, p, cc)` is the pooled entry
    `(b, n0 + p, cc)` of `X` and `I`. -/
theorem point_eq (X : FVec Ideal S16x4096x64 .f32) (I : IVec S16x4096x32 32) (x0 : Vec Ideal S1x4096x64 .f32)
    (x1 : Vec Ideal S1x256x32 .i32) (b : Fin 16) (n0 : ℕ) (hn0 : n0 + 256 ≤ 4096)
    (h0 : ∀ (q : Fin 4096) (cc : Fin 64), x0 (ix3 (0 : Fin 1) q cc) = X (ix3 b q cc))
    (h1 : ∀ (p : Fin 256) (k : Fin 32),
      x1 (ix3 (0 : Fin 1) p k) = I (ix3 b (⟨n0 + p.val, by have := p.isLt; omega⟩ : Fin 4096) k))
    (u : Fin 1) (p : Fin 256) (cc : Fin 64) :
    out0_2 x0 x1 (ix3 u p cc) = pooledAt X I b ⟨n0 + p.val, by have := p.isLt; omega⟩ cc := by
  rw [out_apply]
  unfold pooledAt
  simp only [h0, h1]

/-- Point `t`'s block of the body's result, entry by entry, as pooled entries of the argument arrays. -/
theorem block_eq (c : Dev nD) (t : Fin cfg0.N) (y : S1x256x64.Idx) :
    out0_2 (iblk m c 0 t) (iblk m c 1 t) y
      = pooledAt (V m c main_arg0) (V m c main_arg1) ⟨t.val / 16, by have := lt_N t; omega⟩
          ⟨t.val % 16 * 256 + (y 1).val, by have := (y 1).isLt; change (y 1).val < 256 at this; omega⟩ (y 2) := by
  obtain ⟨e00, e01, e02, e10, e11, e12, -, -, -⟩ := idx_facts t
  obtain ⟨u, p, cc, rfl⟩ : ∃ (u : Fin 1) (p : Fin 256) (cc : Fin 64), y = ix3 u p cc := ⟨y 0, y 1, y 2, eq_ix3 y⟩
  refine point_eq (V m c main_arg0) (V m c main_arg1) (iblk m c 0 t) (iblk m c 1 t)
    ⟨t.val / 16, by have := lt_N t; omega⟩ (t.val % 16 * 256) (by omega) ?_ ?_ u p cc
  · intro q cc
    unfold iblk
    rw [View.read_apply]
    show V m c main_arg0 _ = V m c main_arg0 _
    refine congrArg _ (funext fun a => Fin.ext ?_)
    match a with
    | ⟨0, _⟩ => show win0_0.index t (0 : Fin 3) * 1 + 1 * 0 = t.val / 16; omega
    | ⟨1, _⟩ => show win0_0.index t (1 : Fin 3) * 4096 + 1 * q.val = q.val; omega
    | ⟨2, _⟩ => show win0_0.index t (2 : Fin 3) * 64 + 1 * cc.val = cc.val; omega
  · intro p k
    unfold iblk
    rw [View.read_apply]
    show V m c main_arg1 _ = V m c main_arg1 _
    refine congrArg _ (funext fun a => Fin.ext ?_)
    match a with
    | ⟨0, _⟩ => show win0_1.index t (0 : Fin 3) * 1 + 1 * 0 = t.val / 16; omega
    | ⟨1, _⟩ => show win0_1.index t (1 : Fin 3) * 256 + 1 * p.val = t.val % 16 * 256 + p.val; omega
    | ⟨2, _⟩ => show win0_1.index t (2 : Fin 3) * 32 + 1 * k.val = k.val; omega

/-- WHAT POINT `t` WRITES BACK is block `t` of the pooled array of the arguments. -/
theorem flushed_eq (c : Dev nD) (t : Fin cfg0.N) :
    (dats m 0 c).flushed 2 t
      = ((cfg0.win 2).blk t).view.read (Elt Ideal) (pooled (V m c main_arg0) (V m c main_arg1)) := by
  rw [flushed2]
  obtain ⟨-, -, -, -, -, -, e20, e21, e22⟩ := idx_facts t
  funext y
  refine (block_eq m c t y).trans ?_
  have hy0 : (y 0).val < 1 := (y 0).isLt
  refine pooled_apply (V m c main_arg0) (V m c main_arg1) (((cfg0.win 2).blk t).view.emb y) _ _ _ ?_ ?_ ?_
  · show t.val / 16 = win0_2.index t (0 : Fin 3) * 1 + 1 * (y 0).val
    omega
  · show t.val % 16 * 256 + (y 1).val = win0_2.index t (1 : Fin 3) * 256 + 1 * (y 1).val
    omega
  · show (y 2).val = win0_2.index t (2 : Fin 3) * 64 + 1 * (y 2).val
    omega

/-- An index of the output is in point `t`'s block when each coordinate is in the block's range on its axis. -/
theorem mem_blk (t : Fin cfg0.N) (i : S16x4096x64.Idx) :
    i ∈ ((cfg0.win 2).blk t).view.set ↔ ∀ a : Fin 3, win0_2.index t a * S1x256x64.size a ≤ (i a).val
      ∧ (i a).val < win0_2.index t a * S1x256x64.size a + S1x256x64.size a := by
  show i ∈ ((View.whole main_v0).slice (win0_2.rect t)).set ↔ _
  rw [View.set_slice_whole, Rect.mem_set_unit]
  exact Iff.rfl

/-- THE OUTPUT ARRAY after the run is the pooled array: entry `(b, n, c)` lies in the block of point
    `16 b + n / 256`. -/
theorem final (c : Dev nD) :
    (dats m 0 c).arrAt 2 cfg0.N = pooled (V m c main_arg0) (V m c main_arg1) :=
  (dats m 0 c).arrAt_eq_of_cover 2 (pooled (V m c main_arg0) (V m c main_arg1)) (fun t _ => flushed_eq m c t) fun i => by
    have h0 : (i 0).val < 16 := (i 0).isLt
    have h1 : (i 1).val < 4096 := (i 1).isLt
    have h2 : (i 2).val < 64 := (i 2).isLt
    refine ⟨⟨(i 0).val * 16 + (i 1).val / 256, by show _ < grid0.N; rw [N_0]; omega⟩, flush0_2 _, ?_⟩
    rw [mem_blk]
    obtain ⟨-, -, -, -, -, -, e20, e21, e22⟩ := idx_facts ⟨(i 0).val * 16 + (i 1).val / 256, by show _ < grid0.N; rw [N_0]; omega⟩
    intro a
    match a with
    | ⟨0, _⟩ =>
      show win0_2.index _ (0 : Fin 3) * 1 ≤ (i 0).val ∧ (i 0).val < win0_2.index _ (0 : Fin 3) * 1 + 1
      rw [e20]; show ((i 0).val * 16 + (i 1).val / 256) / 16 * 1 ≤ (i 0).val ∧ (i 0).val < ((i 0).val * 16 + (i 1).val / 256) / 16 * 1 + 1
      omega
    | ⟨1, _⟩ =>
      show win0_2.index _ (1 : Fin 3) * 256 ≤ (i 1).val ∧ (i 1).val < win0_2.index _ (1 : Fin 3) * 256 + 256
      rw [e21]; show ((i 0).val * 16 + (i 1).val / 256) % 16 * 256 ≤ (i 1).val ∧ (i 1).val < ((i 0).val * 16 + (i 1).val / 256) % 16 * 256 + 256
      omega
    | ⟨2, _⟩ =>
      show win0_2.index _ (2 : Fin 3) * 64 ≤ (i 2).val ∧ (i 2).val < win0_2.index _ (2 : Fin 3) * 64 + 64
      rw [e22]
      omega

/-- THE KERNEL'S RUN, READ: the result array ends at the pooled array of the arguments, which end unchanged. -/
theorem run : θ_run defs (onTc (τ := τ) (main (F := Ideal))) ⟨m, fun _ => 0, ρ⟩ fun r => ∀ c : Dev nD,
      r.2.mem ((c : Thread nD τ).loc main_v0)
        = pooled (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩) (run_blocks m ρ)

end Cert.KernelIdeal.Hand

end
-- ==== Proof.RefGather.lean ====
/-
  The reference read at an index.  jnp's `xb[ib]` under `vmap` is ONE batched gather: result element
  `(b, n, k, c)` is the table entry `x[b, s, c]` whose row `s` is the start index `idx'[b, n, k]` read as a signed
  integer and clamped into `0 … 4095`, where `idx'` is `idx` with `4096` added to its negative entries.  For an
  index word that encodes a number below 4096 neither the wrap nor the clamp changes anything, so the
  reference's mean at `(b, n, c)` is `(0 + Σ_k x[b, idx[b, n, k], c]) / 32`.
-/
import proofs.«431460_j53334903882144_1_alg».proof.Proof.Gen.ReferenceIdeal.Read
import Idealize.ShloMosaic.Lib.ValueIdx
import Idealize.ShloMosaic.Lib.StableHlo.Predicate

noncomputable section

open scoped BigOperators

namespace Cert.ReferenceIdeal.RefValue

open Cert.ReferenceIdeal Cert.ReferenceIdeal.Gen Cert.ReferenceIdeal.Read Idealize.ShloMosaic Idealize.ShloMosaic.ValueIdx

/-- The gather's dimension numbers: batch axis 0 of the table pairs with batch axis 0 of the indices, the start
    index names the table's row axis 1 (collapsed), and the 64 columns are the one offset axis. -/
abbrev gd : GatherDims S16x4096x64 S16x4096x32x1 S16x4096x32x64 :=
  gather_S16x4096x64_S16x4096x32x1_S16x4096x32x64_3_1_0_0_1_3_1164

section Gather
variable {α : Type}

/-- On the batch axis the table is read at the result's batch coordinate. -/
theorem operand_batch (s : IVec S16x4096x32x1 32) (b : Fin 16) (n : Fin 4096) (k : Fin 32) (c : Fin 64) :
    (gd.operandIdx (ix4 b n k c) s 0).val = b.val := by
  show gd.start (ix4 b n k c) s 0 + gd.batchCoord (ix4 b n k c) 0 + gd.offCoord (ix4 b n k c) 0 = _
  rw [gd.start_batching _ _ _ (by decide),
    gd.offCoord_eq_zero _ _ (fun h => ((gd.mem_sKept _).mp h).2 (by decide))]
  simp only [Nat.zero_add, Nat.add_zero]
  unfold GatherDims.batchCoord
  rw [dif_pos (by decide)]
  rfl

/-- On the row axis the table is read at the start index `s[b, n, k, 0]`, read signed and clamped into `0 … 4095`. -/
theorem operand_row (s : IVec S16x4096x32x1 32) (b : Fin 16) (n : Fin 4096) (k : Fin 32) (c : Fin 64) :
    (gd.operandIdx (ix4 b n k c) s 1).val = min (s (ix4 b n k (0 : Fin 1))).toInt.toNat 4095 := by
  show gd.start (ix4 b n k c) s 1 + gd.batchCoord (ix4 b n k c) 1 + gd.offCoord (ix4 b n k c) 1 = _
  rw [gd.batchCoord_eq_zero _ _ (by decide),
    gd.offCoord_eq_zero _ _ (fun h => ((gd.mem_sKept _).mp h).1 (by decide))]
  simp only [Nat.add_zero]
  unfold GatherDims.start
  rw [dif_pos (show (1 : Fin S16x4096x64.rank) ∈ gd.startIndexMap by decide)]
  have hsi : gd.siIdx (ix4 b n k c) ⟨List.idxOf (1 : Fin S16x4096x64.rank) gd.startIndexMap,
      List.idxOf_lt_length_iff.2 (by decide)⟩ = ix4 b n k (0 : Fin 1) := by
    funext a; refine Fin.ext ?_
    match a with
    | ⟨0, _⟩ => rfl
    | ⟨1, _⟩ => rfl
    | ⟨2, _⟩ => rfl
    | ⟨3, _⟩ => rfl
  rw [hsi]
  rfl

/-- On the column axis the table is read at the result's column. -/
theorem operand_col (s : IVec S16x4096x32x1 32) (b : Fin 16) (n : Fin 4096) (k : Fin 32) (c : Fin 64) :
    (gd.operandIdx (ix4 b n k c) s 2).val = c.val := by
  show gd.start (ix4 b n k c) s 2 + gd.batchCoord (ix4 b n k c) 2 + gd.offCoord (ix4 b n k c) 2 = _
  rw [gd.batchCoord_eq_zero _ _ (by decide)]
  unfold GatherDims.start
  rw [dif_neg (by decide)]
  simp only [Nat.zero_add, Nat.add_zero]
  unfold GatherDims.offCoord
  rw [dif_pos ((gd.mem_sKept _).mpr ⟨by decide, by decide⟩)]
  rfl

/-- THE BATCHED GATHER READ AT `(b, n, k, c)`: the table at batch `b`, the clamped start row, column `c`. -/
theorem gather_apply (x : S16x4096x64.Idx → α) (s : IVec S16x4096x32x1 32) (b : Fin 16) (n : Fin 4096) (k : Fin 32)
    (c : Fin 64) (row : Fin 4096) (hrow : row.val = min (s (ix4 b n k (0 : Fin 1))).toInt.toNat 4095) :
    Host.gather gd x s (ix4 b n k c) = x (ix3 b row c) := by
  unfold Host.gather
  refine congrArg x (funext fun a => Fin.ext ?_)
  match a with
  | ⟨0, _⟩ => exact operand_batch s b n k c
  | ⟨1, _⟩ => exact (operand_row s b n k c).trans hrow.symm
  | ⟨2, _⟩ => exact operand_col s b n k c

end Gather

end Cert.ReferenceIdeal.RefValue

end
-- ==== Proof.RefMean.lean ====
/-
  The reference's mean at an index, for index words below 4096.  Such a word is not negative, so jnp's wrap of
  negative indices leaves it, and it is at most 4095, so the gather's clamp leaves it: the gathered entry is
  the table entry the index names, and the mean is the zero-initialised sum of the thirty-two named entries
  divided by `32`.
-/
import proofs.«431460_j53334903882144_1_alg».proof.Proof.RefGather

noncomputable section

open scoped BigOperators

namespace Cert.ReferenceIdeal.RefValue

open Cert.ReferenceIdeal Cert.ReferenceIdeal.Gen Cert.ReferenceIdeal.Read Idealize.ShloMosaic Idealize.ShloMosaic.ValueIdx

/-- The wrap `select (w < 0) (w + 4096) w` leaves the word of a number below 4096. -/
theorem wrap_small (a : ℕ) (ha : a < 4096) :
    Scalar.select (IntOp.cmpi .slt (BitVec.ofNat 32 a) 0#32) (IntOp.addi (BitVec.ofNat 32 a) 4096#32) (BitVec.ofNat 32 a)
      = BitVec.ofNat 32 a := by
  have h31 : a < 2 ^ 31 := lt_of_lt_of_le ha (by norm_num)
  have e : IntOp.cmpi .slt (BitVec.ofNat 32 a) 0#32 = 0#1 := by
    refine eq_zero_of_ne_one fun h => ?_
    rw [IntOp.cmpi_slt, StableHlo.Predicate.toInt_ofNat_small a h31] at h
    have e0 : (0#32 : BitVec 32).toInt = 0 := by decide
    omega
  rw [e, select_zero]

/-- Read signed and clamped into `0 … 4095`, the word of a number below 4096 is that number. -/
theorem clamp_small (a : ℕ) (ha : a < 4096) : min (BitVec.ofNat 32 a).toInt.toNat 4095 = a := by
  have h31 : a < 2 ^ 31 := lt_of_lt_of_le ha (by norm_num)
  rw [StableHlo.Predicate.toInt_ofNat_small a h31, Int.toNat_natCast]
  omega

/-- THE REFERENCE AT `(b, n, c)` when the thirty-two indices of row `(b, n)` are the words of `a b n k < 4096`. -/
theorem mean_apply (x : FVec Ideal S16x4096x64 .f32) (idx : IVec S16x4096x32 32)
    (a : Fin 16 → Fin 4096 → Fin 32 → Fin 4096) (ha : ∀ b n k, idx (ix3 b n k) = BitVec.ofNat 32 (a b n k).val)
    (b : Fin 16) (n : Fin 4096) (c : Fin 64) :
    val_main_v9 (F := Ideal) x idx (ix3 b n c)
      = Ideal.div (Ideal.ofBits .f32 0x00000000#32 + ∑ k : Fin 32, x (ix3 b (a b n k) c)) (Ideal.ofBits .f32 0x42000000#32) := by
  rw [val_main_v9_apply, val_main_v8_apply, val_main_cst_1_apply, val_main_v7_apply, val_main_cst_apply]
  show Ideal.div (Ideal.ofBits .f32 0x00000000#32 + ∑ k : Fin 32, val_main_v6 (F := Ideal) x idx (idx_main_v7 (ix3 b n c) k))
    (Ideal.ofBits .f32 0x42000000#32) = _
  refine congrArg (fun S => Ideal.div (Ideal.ofBits .f32 0x00000000#32 + S) (Ideal.ofBits .f32 0x42000000#32)) ?_
  refine Finset.sum_congr rfl fun k _ => ?_
  have e7 : idx_main_v7 (ix3 b n c) k = ix4 b n k c := funext fun d => by
    match d with
    | ⟨0, _⟩ => rfl
    | ⟨1, _⟩ => rfl
    | ⟨2, _⟩ => rfl
    | ⟨3, _⟩ => rfl
  rw [e7]
  unfold val_main_v6
  refine gather_apply x _ b n k c (a b n k) ?_
  have e5 : idx_main_v5 (ix4 b n k (0 : Fin 1)) = ix3 b n k := funext fun d => by
    match d with
    | ⟨0, _⟩ => rfl
    | ⟨1, _⟩ => rfl
    | ⟨2, _⟩ => rfl
  rw [val_main_v5_apply, e5, val_main_v4_apply, val_main_v1_apply, val_main_v3_apply, val_main_v0_apply, val_main_c_apply,
    val_main_v2_apply, val_main_c_0_apply, ha b n k, wrap_small _ (a b n k).isLt, clamp_small _ (a b n k).isLt]

end Cert.ReferenceIdeal.RefValue

end
-- ==== Proof.PreRead.lean ====
/-
  The precondition read back.  It is one bit: "every entry of `x` has `|x| < +inf`, and every entry of `idx`
  is `≥ 0` and `< 4096`", an `and` of three all-reductions.  When the bit is 1 every reduced element is 1, which
  says of each table entry that it is a real number, and of each index word that, read unsigned, it is below
  4096 (a word that is nonnegative read signed reads the same unsigned).
-/
import proofs.«431460_j53334903882144_1_alg».proof.Pre_finite_inputs
import proofs.«431460_j53334903882144_1_alg».proof.Proof.Gen.Pre_finite_inputs
import Idealize.ShloMosaic.Lib.ReduceAll
import Idealize.ShloMosaic.Lib.ValueIdx
import Idealize.ShloMosaic.Lib.StableHlo.Predicate

noncomputable section

namespace Cert.Pre_finite_inputs.Decode

open Cert.Pre_finite_inputs Cert.Pre_finite_inputs.Gen Idealize.ShloMosaic

/-- A rank-0 shape has one index. -/
instance : Subsingleton S_.Idx := ⟨fun a b => funext fun d => d.elim0⟩

/-- An extended real whose absolute value is below the f32 word for `+inf` is a real number. -/
theorem real_of_abs_lt (x : EReal)
    (h : Ideal.cmp .olt (max x (-x)) (Ideal.ofBits .f32 0x7F800000#32) = 1#1) : ∃ r : ℝ, x = (r : EReal) := by
  have htop : Ideal.ofBits .f32 0x7F800000#32 = ⊤ := by simp [Ideal.ofBits, Ideal.ieee]
  rw [htop] at h
  unfold Ideal.cmp at h
  rw [StableHlo.Predicate.ofBool_eq_one_iff, decide_eq_true_eq] at h
  induction x using EReal.rec with
  | bot => simp at h
  | coe r => exact ⟨r, rfl⟩
  | top => simp at h

/-- A word that tests `≥ 0` and `< 4096` as a signed integer is below 4096 read unsigned. -/
theorem toNat_lt_of_range (w : BitVec 32) (h0 : IntOp.cmpi .sge w 0#32 = 1#1)
    (h1 : IntOp.cmpi .slt w 4096#32 = 1#1) : w.toNat < 4096 := by
  have hn : 2 * w.toNat < 2 ^ 32 := (Scalar.nonneg_iff w).mp h0
  have ht : w.toInt = w.toNat := StableHlo.Predicate.toInt_eq_toNat_of_lt (by omega)
  have e1 : (4096#32 : BitVec 32).toInt = 4096 := by decide
  rw [IntOp.cmpi_slt, ht, e1] at h1
  omega

/-- THE PRECONDITION DECODED: every table entry is real and every index word is below 4096. -/
theorem decode (x : FVec Ideal S16x4096x64 .f32) (idx : IVec S16x4096x32 32)
    (h : fn (F := Ideal) x idx = fun _ => 1#1) :
    (∀ i, ∃ r : ℝ, x i = (r : EReal)) ∧ ∀ i, (idx i).toNat < 4096 := by
  have e := congrFun h ValueIdx.ix0
  dsimp only [fn] at e
  obtain ⟨hab, hc⟩ := IntOp.andi_eq_one.mp e
  obtain ⟨ha, hb⟩ := IntOp.andi_eq_one.mp hab
  refine ⟨fun i => real_of_abs_lt _ ?_, fun i => toNat_lt_of_range _ ?_ ?_⟩
  · exact Host.reduce_andi_all _ _ _ _ _ ha i
  · exact Host.reduce_andi_all _ _ _ _ _ hb i
  · exact Host.reduce_andi_all _ _ _ _ _ hc i

end Cert.Pre_finite_inputs.Decode

end
-- ==== Proof.Bridge.lean ====
/-
  The two arrangements are one array.  Under the precondition — the table real, every index word a number
  below 4096 — the reference's result, the mean of the gathered rows, is the pooled array the kernel computes
  by counting: entry by entry, "counted is gathered".
-/
import proofs.«431460_j53334903882144_1_alg».proof.Proof.RefMean
import proofs.«431460_j53334903882144_1_alg».proof.Proof.PreRead
import proofs.«431460_j53334903882144_1_alg».proof.Proof.Pooled

noncomputable section

open scoped BigOperators

namespace Cert.ReferenceIdeal.RefValue

open Cert.ReferenceIdeal Cert.ReferenceIdeal.Gen Cert.ReferenceIdeal.Read Idealize.ShloMosaic Idealize.ShloMosaic.ValueIdx
open Cert.Pooling

/-- THE REFERENCE IS THE POOLED ARRAY, when the precondition's bit is 1 on the two arrays. -/
theorem ref_eq_pooled (X : FVec Ideal S16x4096x64 .f32) (I : IVec S16x4096x32 32)
    (h : Cert.Pre_finite_inputs.fn (F := Ideal) X I = fun _ => 1#1) :
    val_main_v9 (F := Ideal) X I = pooled X I := by
  obtain ⟨hX, hI⟩ := Cert.Pre_finite_inputs.Decode.decode X I h
  funext i
  obtain ⟨b, n, c, rfl⟩ : ∃ (b : Fin 16) (n : Fin 4096) (c : Fin 64), i = ix3 b n c := ⟨i 0, i 1, i 2, eq_ix3 i⟩
  let a : Fin 16 → Fin 4096 → Fin 32 → Fin 4096 := fun b n k => ⟨(I (ix3 b n k)).toNat, hI _⟩
  have ha : ∀ b n k, I (ix3 b n k) = BitVec.ofNat 32 (a b n k).val := fun b n k => by
    show I (ix3 b n k) = BitVec.ofNat 32 (I (ix3 b n k)).toNat
    rw [BitVec.ofNat_toNat, BitVec.setWidth_eq]
  rw [mean_apply X I a ha b n c]
  exact (pooledAt_eq_mean X I a ha hX b n c).symm

end Cert.ReferenceIdeal.RefValue

end
-- ==== Proof.lean ====
/-
  Mean pooling of gathered neighbours, two ways.  The reference gathers, for every batch `b` and point `n`, the
  thirty-two table rows `x[b, idx[b, n, k], :]` and averages them: `(0 + Σ_k x[b, idx[b, n, k], c]) / 32`.  The kernel,
  per batch and per tile of 256 points, counts for every table row `q` how many of the point's thirty-two indices
  name it (thirty-two compares against the lane numbers, accumulated as floats), multiplies the counts into the
  batch's table on the matrix unit, and scales by `1/32`: `(Σ_q cnt[n, q] · x[b, q, c]) · (1/32)`.

  At the ideal values the two are the same extended real whenever the table is real and every index is in
  `0 … 4095` — exchange the two sums, and a sum of an indicator picks one term (Proof/Pooling.lean,
  Proof/Pooled.lean); dividing by `32` is multiplying by `1/32`.  Both facts are what the precondition says
  (Proof/PreRead.lean): finiteness lets the exchange of the two sums be carried out over the reals, where
  multiplication distributes over addition, and the index range is needed because outside it the kernel's
  compares match no lane while the reference's gather wraps and clamps.

  The kernel's result array is read off its run block by block (Proof/Counts.lean, Proof/Body.lean,
  Proof/Blocks.lean), the reference's off its run operation by operation, the batched gather by hand
  (Proof/RefGather.lean, Proof/RefMean.lean); Proof/Bridge.lean joins them.  The three frames are the programs'
  runs with the results dropped, and the idealization rewrote nothing, so `preserves` is trivial.
-/
import proofs.«431460_j53334903882144_1_alg».proof.Defs
import proofs.«431460_j53334903882144_1_alg».proof.Proof.Gen.Kernel
import proofs.«431460_j53334903882144_1_alg».proof.Proof.Gen.Kernel.Skeleton
import proofs.«431460_j53334903882144_1_alg».proof.Proof.Gen.Kernel.Launch
import proofs.«431460_j53334903882144_1_alg».proof.Proof.Gen.Kernel.Points
import proofs.«431460_j53334903882144_1_alg».proof.Proof.Gen.Kernel.Frame
import proofs.«431460_j53334903882144_1_alg».proof.Proof.Gen.KernelIdeal
import proofs.«431460_j53334903882144_1_alg».proof.Proof.Gen.KernelIdeal.Skeleton
import proofs.«431460_j53334903882144_1_alg».proof.Proof.Gen.KernelIdeal.Launch
import proofs.«431460_j53334903882144_1_alg».proof.Proof.Gen.KernelIdeal.Points
import proofs.«431460_j53334903882144_1_alg».proof.Proof.Gen.KernelIdeal.Frame
import proofs.«431460_j53334903882144_1_alg».proof.Proof.Gen.ReferenceIdeal
import proofs.«431460_j53334903882144_1_alg».proof.Proof.Gen.Pre_finite_inputs
import proofs.«431460_j53334903882144_1_alg».proof.Proof.Gen.KernelIdeal.Value
import proofs.«431460_j53334903882144_1_alg».proof.Proof.Gen.ReferenceIdeal.Run
import proofs.«431460_j53334903882144_1_alg».proof.Proof.Gen.ReferenceIdeal.Read
import proofs.«431460_j53334903882144_1_alg».proof.Proof.Blocks
import proofs.«431460_j53334903882144_1_alg».proof.Proof.Bridge
import Idealize.ShloMosaic.Adequacy
import Idealize.ShloMosaic.Init

noncomputable section

namespace Cert.Proof

open Idealize.ShloMosaic Idealize.SL.Sem

/-- The word-level kernel runs and leaves its arguments. -/
theorem frame_kernel : Cert.frame_Kernel := fun m ρ _ => Cert.Kernel.Gen.frame m ρ

/-- So does the idealized kernel. -/
theorem frame_kernelIdeal : Cert.frame_KernelIdeal := fun m ρ _ => Cert.KernelIdeal.Gen.frame m ρ

/-- The reference's run with its result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The ideal pass rewrote no operation. -/
theorem preserves : Cert.preserves_Kernel_KernelIdeal := trivial

/-- The kernel's result array ends at the pooled array of its arguments; the reference's at the mean of the gathered
    rows of arguments that agree with them, which under the precondition is the same array. -/
theorem algebraic : Cert.algebraic_KernelIdeal_ReferenceIdeal := by
  intro m ρ m' ρ' hpre hagree
  refine ⟨_, Cert.KernelIdeal.Hand.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2, Cert.ReferenceIdeal.Read.val_main_v9_eq]
  exact Cert.ReferenceIdeal.RefValue.ref_eq_pooled _ _ (hpre c)

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
